-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16 : Shape := ⟨1, ![16]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) (main_arg2 : FVec F S16x2048x256 .f32) (main_arg3 : IVec S16 32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x256 .f32 := Host.absf main_arg2
  let main_cst_2 : FVec F S_ .f32 := constant S_ .f32 0x7F800000#32
  let main_v10 : FVec F S16x2048x256 .f32 := broadcastInDim S16x2048x256 ![] bcast_S_S16x2048x256 main_cst_2
  let main_v11 : IVec S16x2048x256 1 := cmpf .olt main_v9 main_v10
  let main_c_3 : IVec S_ 1 := constantI S_ 1 1#1
  let main_v12 : IVec S_ 1 := (fun x v => Host.reduce IntOp.andi x v reducesTo_S16x2048x256_S_d0_1_2 h_S_) main_v11 main_c_3
  let main_v13 : IVec S_ 1 := andi main_v8 main_v12
  main_v13
-- ==== Kernel.lean ====
abbrev S16x2048x256 : Shape := ⟨3, ![16, 2048, 256]⟩
abbrev S16 : Shape := ⟨1, ![16]⟩
abbrev S16x2048x2048 : Shape := ⟨3, ![16, 2048, 2048]⟩
abbrev S1x512x256 : Shape := ⟨3, ![1, 512, 256]⟩
abbrev S1x2048x256 : Shape := ⟨3, ![1, 2048, 256]⟩
abbrev S1x512x2048 : Shape := ⟨3, ![1, 512, 2048]⟩
abbrev S2048x256 : Shape := ⟨2, ![2048, 256]⟩
abbrev S1 : Shape := ⟨1, ![1]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 11
  | .smem => 1
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x2048, .f32⟩
  | .hbm, ⟨4, _⟩ => ⟨S16x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x512x2048, .f32⟩
  | .local _ .vmem, ⟨7, _⟩ => ⟨S1x512x2048, .f32⟩
  | .local _ .vmem, ⟨8, _⟩ => ⟨S1x512x256, .f32⟩
  | .local _ .vmem, ⟨9, _⟩ => ⟨S1x512x256, .f32⟩
  | .local _ .vmem, ⟨10, _⟩ => ⟨S2048x256, .bf16⟩
  | .local _ .smem, ⟨0, _⟩ => ⟨S16, .i32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  numel1_S1 : S1.numel = 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  broadcasts_S512x1_S512x256 : S512x1.Broadcasts S512x256
  shapeCasts_S512x256_S1x512x256 : S512x256.ShapeCasts S1x512x256
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x256.size a
  hwx0_2 : ∀ i : grid0.Coords, EltTy.bits .f32 = 32 ∨ (Rect.block (s := S16x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S16x2048x256.size a
  hwx0_4 : ∀ i : grid0.Coords, EltTy.bits .f32 = 32 ∨ (Rect.block (s := S16x2048x256) S1x512x256.size (cc0_transform_4 i) (hinb0_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev spec0_0 : Pipeline.WinSpec sig grid0.rank :=
  Pipeline.WinSpec.ofSpec (Memref.whole main_arg0) S1x512x256.size reads0_0 false false 2 stage0_0 sem0_0 nbuf0_0 hstage0_0

abbrev spec0_1 : Pipeline.WinSpec sig grid0.rank :=
  Pipeline.WinSpec.ofSpec (Memref.whole main_arg1) S1x2048x256.size reads0_1 false false 2 stage0_1 sem0_1 nbuf0_1 hstage0_1

abbrev spec0_2 : Pipeline.WinSpec sig grid0.rank :=
  Pipeline.WinSpec.ofSpec (Memref.whole main_arg2) S1x2048x256.size reads0_2 false false 2 stage0_2 sem0_2 nbuf0_2 hstage0_2

abbrev spec0_3 : Pipeline.WinSpec sig grid0.rank :=
  Pipeline.WinSpec.ofSpec (Memref.whole main_v0_0) S1x512x2048.size reads0_3 true false 2 stage0_3 sem0_3 nbuf0_3 hstage0_3

abbrev spec0_4 : Pipeline.WinSpec sig grid0.rank :=
  Pipeline.WinSpec.ofSpec (Memref.whole main_v0_1) S1x512x256.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S16x2048x256 : Shape := ⟨3, ![16, 2048, 256]⟩
abbrev S16 : Shape := ⟨1, ![16]⟩
abbrev S16x2048x2048 : Shape := ⟨3, ![16, 2048, 2048]⟩
abbrev S_ : Shape := ⟨0, ![]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S16x2048 : Shape := ⟨2, ![16, 2048]⟩
abbrev S16x2048x1 : Shape := ⟨3, ![16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16, .i32⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S2048, .i32⟩
  | .hbm, ⟨10, _⟩ => ⟨S1x1x2048, .i32⟩
  | .hbm, ⟨11, _⟩ => ⟨S16x1x1, .i32⟩
  | .hbm, ⟨12, _⟩ => ⟨S16x1x2048, .i32⟩
  | .hbm, ⟨13, _⟩ => ⟨S16x1x2048, .i32⟩
  | .hbm, ⟨14, _⟩ => ⟨S16x1x2048, .i1⟩
  | .hbm, ⟨15, _⟩ => ⟨S_, .f32⟩
  | .hbm, ⟨16, _⟩ => ⟨S_, .f32⟩
  | .hbm, ⟨17, _⟩ => ⟨S16x2048x2048, .i1⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.Pieces.lean ====
/-
  What each case of the kernel body leaves in its two output blocks and in the carried bf16 value scratch, as values of
  the blocks it was handed.

  At a first query tile of a batch (case A) the body first stores the bf16 copy of the value block into the scratch and
  then reads it back for the context matmul; at the other tiles (case B) it reads what the tile before left there. In
  both cases the attention-weight block is the payload of the query block, the key block and the batch's length word,
  and the context block is the payload over those and the scratch contents. The length word is the prefetched table
  read at the batch coordinate.
-/
import proofs.«420353_j32435593020205_2_alg».proof.Proof.Gen.KernelIdeal.Frame
import Idealize.ShloMosaic.Lib.Pipeline.Value
import Idealize.ShloMosaic.Lib.ValueIdx
import Idealize.ShloMosaic.Lib.Tactic

noncomputable section

namespace Cert.Attn.Pc

open Idealize.ShloMosaic Idealize.ShloMosaic.TcCoe Idealize.SL.Sem Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The valid-length word the body loads at grid point `i`: the table's entry at the batch coordinate. -/
def lenWord (c : Dev nD) (i : grid0.Coords) (xt : TbBuf0 (F := F) c tbM0_0) : Elt F .i32 := kernelRun0_A.sl.r c i xt

/-- Case B loads the same word. -/
theorem lenWord_B (c : Dev nD) (i : grid0.Coords) (xt : TbBuf0 (F := F) c tbM0_0) :
    kernelRun0_B.sl.r c i xt = lenWord c i xt := rfl

/-- The word is the table's entry at the point's batch coordinate. -/
theorem lenWord_eq (c : Dev nD) (i : grid0.Coords) (xt : TbBuf0 (F := F) c tbM0_0) :
    lenWord c i xt = xt (ix1 (i 0)) := by
  unfold lenWord kernelRun0_A.sl.r
  show (tbM0_0.view.read (Elt F) xt) ((Rect.unit (s := S16) (k0_off1 i) S1.size (k0_off1_inb i)).toLoadRect.idx (Shape.Idx.first _)) = _
  have hw : tbM0_0.view.read (Elt F) xt = xt := by funext j; rfl
  rw [hw]
  congr 1
  funext a
  apply Fin.ext
  match a with
  | ⟨0, _⟩ =>
    have hi : (i 0).val < 16 := (i 0).isLt
    show k0_off1 i 0 + 1 * 0 = (i 0).val
    unfold k0_off1
    simp only [Scalar.indexCast, Matrix.cons_val_zero, BitVec.toNat_ofNat, Nat.mul_zero, Nat.add_zero]
    omega

/-! ## Case A: a batch's first query tile -/

/-- The attention-weight block of case A. -/
theorem outA3 (c : Dev nD) (i : grid0.Coords) (a3 : Memref sig .tc .vmem S1x512x256 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x512x2048 .f32) (h6 : a6.IsWhole) (a7 : Memref sig .tc .vmem S1x512x256 .f32) (h7 : a7.IsWhole) (a8 : Memref sig .tc .vmem S2048x256 .bf16) (h8 : a8.IsWhole) (hc : cond0_0 i)
    (x0 : Vec F S1x512x256 .f32) (x1 : Vec F S1x2048x256 .f32) (x2 : Vec F S1x2048x256 .f32) (xt : TbBuf0 (F := F) c tbM0_0) :
    out0_A_3 c i a3 h3 a4 h4 a5 h5 a6 h6 a7 h7 a8 h8 hc x0 x1 x2 xt = k0_pay5 (lenWord c i xt) x0 x1 := by
  unfold out0_A_3
  rw [View.read_writes_eq_canon _ _ _ (cover0_A_3 c i a3 h3 a4 h4 a5 h5 a6 h6 a7 h7 a8 h8 hc x0 x1 x2 xt)]
  unfold kernelRun0_A
  dsimp only
  rw [View.canon_unit_zero hz3]
  simp only [View.readAt_eq_ld, h3.read_unread, h4.read_unread, h5.read_unread, View.ld_unit_zero (S := S1x512x256) hz3, View.ld_unit_zero (S := S1x2048x256) hz3]
  rfl

/-- The scratch after case A: the bf16 copy of the value block. -/
theorem soutA (c : Dev nD) (i : grid0.Coords) (a3 : Memref sig .tc .vmem S1x512x256 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x512x2048 .f32) (h6 : a6.IsWhole) (a7 : Memref sig .tc .vmem S1x512x256 .f32) (h7 : a7.IsWhole) (a8 : Memref sig .tc .vmem S2048x256 .bf16) (h8 : a8.IsWhole) (hc : cond0_0 i)
    (x0 : Vec F S1x512x256 .f32) (x1 : Vec F S1x2048x256 .f32) (x2 : Vec F S1x2048x256 .f32) (xt : TbBuf0 (F := F) c tbM0_0) :
    sout0_A_0 c i a3 h3 a4 h4 a5 h5 a6 h6 a7 h7 a8 h8 hc x0 x1 x2 xt = k0_pay2 x2 := by
  unfold sout0_A_0
  rw [View.read_writes_eq_canon _ _ _ (scover0_A_0 c i a3 h3 a4 h4 a5 h5 a6 h6 a7 h7 a8 h8 hc x0 x1 x2 xt)]
  unfold kernelRun0_A
  dsimp only
  sl_unfold_words
  rw [View.canon_unit_zero hz2]
  simp only [View.readAt_eq_ld, h3.read_unread, h4.read_unread, h5.read_unread, View.ld_unit_zero (S := S1x512x256) hz3, View.ld_unit_zero (S := S1x2048x256) hz3]

/-- The context block of case A: the matmul reads the scratch just stored. -/
theorem outA4 (c : Dev nD) (i : grid0.Coords) (a3 : Memref sig .tc .vmem S1x512x256 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x512x2048 .f32) (h6 : a6.IsWhole) (a7 : Memref sig .tc .vmem S1x512x256 .f32) (h7 : a7.IsWhole) (a8 : Memref sig .tc .vmem S2048x256 .bf16) (h8 : a8.IsWhole) (hc : cond0_0 i)
    (x0 : Vec F S1x512x256 .f32) (x1 : Vec F S1x2048x256 .f32) (x2 : Vec F S1x2048x256 .f32) (xt : TbBuf0 (F := F) c tbM0_0) :
    out0_A_4 c i a3 h3 a4 h4 a5 h5 a6 h6 a7 h7 a8 h8 hc x0 x1 x2 xt = k0_pay1 (k0_pay6 (lenWord c i xt) x0 x1 (k0_pay2 x2)) := by
  unfold out0_A_4
  rw [View.read_writes_eq_canon _ _ _ (cover0_A_4 c i a3 h3 a4 h4 a5 h5 a6 h6 a7 h7 a8 h8 hc x0 x1 x2 xt)]
  unfold kernelRun0_A
  dsimp only
  sl_unfold_words
  rw [View.canon_unit_zero hz3]
  simp only [View.readAt_eq_ld, h3.read_unread, h4.read_unread, h5.read_unread, View.ld_unit_zero (S := S1x512x256) hz3, View.ld_unit_zero (S := S1x2048x256) hz3, View.readCov_unit_zero (S := S2048x256) _ hz2]
  rfl

/-! ## Case B: the batch's other query tiles -/

/-- The attention-weight block of case B. -/
theorem outB3 (c : Dev nD) (i : grid0.Coords) (a3 : Memref sig .tc .vmem S1x512x256 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x512x2048 .f32) (h6 : a6.IsWhole) (a7 : Memref sig .tc .vmem S1x512x256 .f32) (h7 : a7.IsWhole) (a8 : Memref sig .tc .vmem S2048x256 .bf16) (h8 : a8.IsWhole) (hc : ¬cond0_0 i)
    (x0 : Vec F S1x512x256 .f32) (x1 : Vec F S1x2048x256 .f32) (x2 : Vec F S1x2048x256 .f32) (xt : TbBuf0 (F := F) c tbM0_0) (xs : Vec F S2048x256 .bf16) :
    out0_B_3 c i a3 h3 a4 h4 a5 h5 a6 h6 a7 h7 a8 h8 hc x0 x1 x2 xt xs = k0_pay5 (lenWord c i xt) x0 x1 := by
  unfold out0_B_3
  rw [View.read_writes_eq_canon _ _ _ (cover0_B_3 c i a3 h3 a4 h4 a5 h5 a6 h6 a7 h7 a8 h8 hc x0 x1 x2 xt xs)]
  unfold kernelRun0_B
  dsimp only
  sl_unfold_words
  rw [View.canon_unit_zero hz3]
  simp only [View.readAt_eq_ld, h3.read_unread, h4.read_unread, h5.read_unread, View.ld_unit_zero (S := S1x512x256) hz3, View.ld_unit_zero (S := S1x2048x256) hz3]
  rfl

/-- The context block of case B: the matmul reads what the tile before left in the scratch. -/
theorem outB4 (c : Dev nD) (i : grid0.Coords) (a3 : Memref sig .tc .vmem S1x512x256 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x512x2048 .f32) (h6 : a6.IsWhole) (a7 : Memref sig .tc .vmem S1x512x256 .f32) (h7 : a7.IsWhole) (a8 : Memref sig .tc .vmem S2048x256 .bf16) (h8 : a8.IsWhole) (hc : ¬cond0_0 i)
    (x0 : Vec F S1x512x256 .f32) (x1 : Vec F S1x2048x256 .f32) (x2 : Vec F S1x2048x256 .f32) (xt : TbBuf0 (F := F) c tbM0_0) (xs : Vec F S2048x256 .bf16) :
    out0_B_4 c i a3 h3 a4 h4 a5 h5 a6 h6 a7 h7 a8 h8 hc x0 x1 x2 xt xs = k0_pay1 (k0_pay6 (lenWord c i xt) x0 x1 xs) := by
  unfold out0_B_4
  rw [View.read_writes_eq_canon _ _ _ (cover0_B_4 c i a3 h3 a4 h4 a5 h5 a6 h6 a7 h7 a8 h8 hc x0 x1 x2 xt xs)]
  unfold kernelRun0_B
  dsimp only
  sl_unfold_words
  rw [View.canon_unit_zero hz3]
  simp only [View.readAt_eq_ld, h3.read_unread, h4.read_unread, h5.read_unread, View.ld_unit_zero (S := S1x512x256) hz3, View.ld_unit_zero (S := S1x2048x256) hz3, h8.read_unread, View.ld_unit_zero (S := S2048x256) hz2]
  rfl

end Cert.Attn.Pc

end
-- ==== Proof.Invariant.lean ====
/-
  What the staging buffers and the carried scratch hold after each grid point, in closed form.

  The grid is 16 batches × 4 query tiles, point `n` being (batch n / 4, tile n % 4). The value block the pipeline hands
  the body depends on the batch only, so the scratch, rewritten at every first tile with the bf16 copy of the batch's
  value block and untouched at the other three, holds at EVERY point the bf16 copy of that point's own value block.
  The two output blocks are then the body's payloads of the point's query, key and value blocks and length word.
-/
import proofs.«420353_j32435593020205_2_alg».proof.Proof.Pieces

noncomputable section

namespace Cert.Attn.Inv

open Idealize.ShloMosaic Idealize.ShloMosaic.TcCoe Idealize.SL.Sem Cert.KernelIdeal Cert.KernelIdeal.Gen Idealize.ShloMosaic.ValueIdx
open Cert.Attn.Pc

variable {F : FTy → Type} [FloatOps F]
variable (m : (ℓ : Loc nD τ sig) → Buf (Elt F) ℓ)

/-- The index maps over the grid: point `t` is (batch t / 4, tile t % 4); the query and output windows follow both
    coordinates, the key and value windows the batch only. -/
theorem idx_facts : ∀ t : Fin grid0.N,
    ((grid0.coords t) 0).val = t.val / 4 ∧ ((grid0.coords t) 1).val = t.val % 4
    ∧ cc0_transform_0 (grid0.coords t) 0 = t.val / 4 ∧ cc0_transform_0 (grid0.coords t) 1 = t.val % 4 ∧ cc0_transform_0 (grid0.coords t) 2 = 0
    ∧ cc0_transform_1 (grid0.coords t) 0 = t.val / 4 ∧ cc0_transform_1 (grid0.coords t) 1 = 0 ∧ cc0_transform_1 (grid0.coords t) 2 = 0
    ∧ cc0_transform_2 (grid0.coords t) 0 = t.val / 4 ∧ cc0_transform_2 (grid0.coords t) 1 = 0 ∧ cc0_transform_2 (grid0.coords t) 2 = 0
    ∧ cc0_transform_3 (grid0.coords t) 0 = t.val / 4 ∧ cc0_transform_3 (grid0.coords t) 1 = t.val % 4 ∧ cc0_transform_3 (grid0.coords t) 2 = 0
    ∧ cc0_transform_4 (grid0.coords t) 0 = t.val / 4 ∧ cc0_transform_4 (grid0.coords t) 1 = t.val % 4 ∧ cc0_transform_4 (grid0.coords t) 2 = 0 :=
  (by decide +kernel : ∀ t : Fin grid0.N, _)

/-- The point's query block, key block and value block, at their literal types. -/
abbrev qblk (hO : Ok m) (c : Dev nD) (t : Fin (cfgM m hO).N) : Vec F S1x512x256 .f32 := iblk m hO c 0 t
abbrev kblk (hO : Ok m) (c : Dev nD) (t : Fin (cfgM m hO).N) : Vec F S1x2048x256 .f32 := iblk m hO c 1 t
abbrev vblk (hO : Ok m) (c : Dev nD) (t : Fin (cfgM m hO).N) : Vec F S1x2048x256 .f32 := iblk m hO c 2 t

/-- The value block at point `t` is batch `t / 4` of the value array. -/
theorem vblk_apply (hO : Ok m) (c : Dev nD) (t : Fin (cfgM m hO).N) (y : S1x2048x256.Idx) :
    vblk m hO c t y = V m c main_arg2 (ix3 (⟨t.val / 4, by have := t.isLt; have : (cfgM m hO).N = 64 := N_0; omega⟩ : Fin 16) (⟨(y 1).val, (y 1).isLt⟩ : Fin 2048) (⟨(y 2).val, (y 2).isLt⟩ : Fin 256)) := by
  obtain ⟨_, _, _, _, _, _, _, _, e0, e1, e2, _⟩ := idx_facts t
  show V m c main_arg2 ((((cfgM m hO).win 2).blk t).view.emb y) = _
  congr 1
  funext a
  apply Fin.ext
  have h0 : (y 0).val < 1 := (y 0).isLt
  match a with
  | ⟨0, _⟩ => show cc0_transform_2 (grid0.coords t) 0 * 1 + 1 * (y 0).val = t.val / 4; omega
  | ⟨1, _⟩ => show cc0_transform_2 (grid0.coords t) 1 * 2048 + 1 * (y 1).val = (y 1).val; omega
  | ⟨2, _⟩ => show cc0_transform_2 (grid0.coords t) 2 * 256 + 1 * (y 2).val = (y 2).val; omega

/-- Two points of one batch are handed the same value block. -/
theorem vblk_congr (hO : Ok m) (c : Dev nD) (t t' : Fin (cfgM m hO).N) (h : t.val / 4 = t'.val / 4) :
    vblk m hO c t = vblk m hO c t' := by
  funext y
  rw [vblk_apply, vblk_apply]
  congr 2
  exact Fin.ext h

/-- The length word at a point: the table's entry at the point's batch. -/
abbrev wordAt (hO : Ok m) (c : Dev nD) (t : Fin (cfgM m hO).N) : Elt F .i32 := lenWord c (grid0.coords t) (tbl m 0)

/-- The three contents after point `n`: the attention-weight block, the context block, and the scratch holding the bf16
    copy of the point's own value block — by induction on the point, a first tile rewriting the scratch, the others
    leaving it (and the value block not changing inside a batch). -/
theorem outs_eq (hO : Ok m) (c : Dev nD) : ∀ (n : ℕ) (h : n < (cfgM m hO).N),
    outsAt0 m hO c n h =
      (k0_pay5 (wordAt m hO c ⟨n, h⟩) (qblk m hO c ⟨n, h⟩) (kblk m hO c ⟨n, h⟩),
       k0_pay1 (k0_pay6 (wordAt m hO c ⟨n, h⟩) (qblk m hO c ⟨n, h⟩) (kblk m hO c ⟨n, h⟩) (k0_pay2 (vblk m hO c ⟨n, h⟩))),
       k0_pay2 (vblk m hO c ⟨n, h⟩))
  | 0, h =>
    (outsAt0_A m hO c ⟨0, h⟩ rfl).trans (congrArg₂ Prod.mk (outA3 ..) (congrArg₂ Prod.mk (outA4 ..) (soutA ..)))
  | n + 1, h => by
    by_cases h0 : (n + 1) % 4 = 0
    · exact (outsAt0_A m hO c ⟨n + 1, h⟩ h0).trans (congrArg₂ Prod.mk (outA3 ..) (congrArg₂ Prod.mk (outA4 ..) (soutA ..)))
    · have hB : ¬(⟨n + 1, h⟩ : Fin (cfgM m hO).N).val % 4 = 0 := h0
      refine (outsAt0_B m hO c ⟨n + 1, h⟩ hB).trans ?_
      have ih := outs_eq hO c n (Nat.lt_of_succ_lt h)
      have hs : (outsAt0 m hO c ((⟨n + 1, h⟩ : Fin (cfgM m hO).N).val - 1) (Nat.lt_of_le_of_lt (Nat.sub_le _ _) h)).2.2
          = k0_pay2 (vblk m hO c ⟨n + 1, h⟩) := by
        show (outsAt0 m hO c n _).2.2 = _
        rw [ih]
        show k0_pay2 (vblk m hO c ⟨n, _⟩) = _
        rw [vblk_congr m hO c ⟨n, Nat.lt_of_succ_lt h⟩ ⟨n + 1, h⟩ (by show n / 4 = (n + 1) / 4; omega)]
      refine congrArg₂ Prod.mk (outB3 ..) (congrArg₂ Prod.mk ((outB4 ..).trans ?_) ?_)
      · rw [hs]
      · exact hs

end Cert.Attn.Inv

end
-- ==== Proof.RowDefs.lean ====
/-
  One attention row over the extended reals, in the two arrangements the two programs compute it in.

  A query row `q : Fin 256 → EReal`, the batch's keys `K` and values `V` (2048 rows of 256), and a 0/1 mask `μ` over the
  2048 key positions. Scores are the scaled dot products where the mask is set and the finite sentinel −10⁶ elsewhere;
  the weights are the softmax of the scores; the context row is the weights' combination of the value rows.

  The kernel's arrangement (`k…`): scale the query by 1/16 before the dot product, divide once (take `1 / l`) and
  multiply, and combine the UNNORMALISED numerators with the values before scaling by `1 / l`.
  The reference's arrangement (`r…`): divide the dot product by √256, divide every numerator by `l`, combine the
  normalised weights with the values.
-/
import Idealize.ShloMosaic.PureOps.Ideal
import Idealize.ShloMosaic.Lib.ValueIdx

noncomputable section

open scoped BigOperators

namespace Cert.Attn

open Idealize.ShloMosaic Idealize.ShloMosaic.ValueIdx

/-- The key positions below the valid length `w`, as the 0/1 words both programs compute: position `k` is kept when
    `k < w` as signed 32-bit integers. -/
def maskOf (w : BitVec 32) : Fin 2048 → BitVec 1 := fun k => IntOp.cmpi .slt (BitVec.ofNat 32 k.val) w

/-! ## The kernel's arrangement -/

/-- Scores: `∑_d (q d · 1/16) · K k d` at a kept position, the sentinel elsewhere. -/
def kScore (q : Fin 256 → EReal) (K : Fin 2048 → Fin 256 → EReal) (μ : Fin 2048 → BitVec 1) (k : Fin 2048) : EReal :=
  Scalar.select (μ k) (∑ d : Fin 256, (q d * Ideal.ofBits .f32 0x3D800000#32) * K k d) (Ideal.ofBits .f32 0xC9742400#32)

/-- The row maximum: the fold of `max` from −∞. -/
def kMax (s : Fin 2048 → EReal) : EReal :=
  (Finset.univ : Finset (Fin 2048)).fold max (Ideal.ofBits .f32 0xFF800000#32) s

/-- The softmax numerators `e^(s k − max)`. -/
def kP (s : Fin 2048 → EReal) (k : Fin 2048) : EReal := Ideal.exp (s k - kMax s)

/-- The reciprocal of the numerators' sum. -/
def kInv (s : Fin 2048 → EReal) : EReal := Ideal.div (Ideal.ofBits .f32 0x3F800000#32) (∑ k : Fin 2048, kP s k)

/-- The attention weights: numerator times the reciprocal. -/
def kAw (s : Fin 2048 → EReal) (k : Fin 2048) : EReal := kP s k * kInv s

/-- The context row: the numerators' combination of the value rows, then the reciprocal. -/
def kCtx (s : Fin 2048 → EReal) (V : Fin 2048 → Fin 256 → EReal) (d : Fin 256) : EReal :=
  (∑ k : Fin 2048, kP s k * V k d) * kInv s

/-! ## The reference's arrangement -/

/-- Scores: `(∑_d q d · K k d) / √256` at a kept position, the sentinel elsewhere. -/
def rScore (q : Fin 256 → EReal) (K : Fin 2048 → Fin 256 → EReal) (μ : Fin 2048 → BitVec 1) (k : Fin 2048) : EReal :=
  Scalar.select (μ k) (Ideal.div (∑ d : Fin 256, q d * K k d) (Ideal.sqrt (Ideal.ofBits .f32 0x43800000#32)))
    (Ideal.ofBits .f32 0xC9742400#32)

/-- The row maximum as the reference takes it: `max (−∞)` of the fold. -/
def rMax (s : Fin 2048 → EReal) : EReal := max (Ideal.ofBits .f32 0xFF800000#32) (kMax s)

/-- The softmax numerators. -/
def rP (s : Fin 2048 → EReal) (k : Fin 2048) : EReal := Ideal.exp (s k - rMax s)

/-- The attention weights: each numerator divided by `0 + ∑` of the numerators. -/
def rAw (s : Fin 2048 → EReal) (k : Fin 2048) : EReal :=
  Ideal.div (rP s k) (Ideal.ofBits .f32 0x00000000#32 + ∑ k' : Fin 2048, rP s k')

/-- The context row: the weights' combination of the value rows. -/
def rCtx (s : Fin 2048 → EReal) (V : Fin 2048 → Fin 256 → EReal) (d : Fin 256) : EReal :=
  ∑ k : Fin 2048, rAw s k * V k d

/-! ## The arrays: every (batch, query) row of the [16, 2048, ·] inputs -/

abbrev ShQKV : Shape := ⟨3, ![16, 2048, 256]⟩
abbrev ShAw : Shape := ⟨3, ![16, 2048, 2048]⟩
abbrev ShLen : Shape := ⟨1, ![16]⟩

/-- Row `r` of batch `b` of a [16, 2048, 256] array. -/
def rowOf (X : ShQKV.Idx → EReal) (b : Fin 16) (r : Fin 2048) : Fin 256 → EReal := fun d => X (ix3 b r d)
/-- Batch `b` of a [16, 2048, 256] array as 2048 rows. -/
def matOf (X : ShQKV.Idx → EReal) (b : Fin 16) : Fin 2048 → Fin 256 → EReal := fun k d => X (ix3 b k d)

/-- The kernel's scores of row (b, r). -/
def kS (Q K : ShQKV.Idx → EReal) (vl : ShLen.Idx → BitVec 32) (b : Fin 16) (r : Fin 2048) : Fin 2048 → EReal :=
  kScore (rowOf Q b r) (matOf K b) (maskOf (vl (ix1 b)))
/-- The reference's scores of row (b, r). -/
def rS (Q K : ShQKV.Idx → EReal) (vl : ShLen.Idx → BitVec 32) (b : Fin 16) (r : Fin 2048) : Fin 2048 → EReal :=
  rScore (rowOf Q b r) (matOf K b) (maskOf (vl (ix1 b)))

/-- The attention-weight array, kernel's arrangement. -/
def awK (Q K : ShQKV.Idx → EReal) (vl : ShLen.Idx → BitVec 32) : ShAw.Idx → EReal :=
  fun i => kAw (kS Q K vl (i 0) (i 1)) (i 2)
/-- The context array, kernel's arrangement. -/
def ctxK (Q K V : ShQKV.Idx → EReal) (vl : ShLen.Idx → BitVec 32) : ShQKV.Idx → EReal :=
  fun i => kCtx (kS Q K vl (i 0) (i 1)) (matOf V (i 0)) (i 2)
/-- The attention-weight array, reference's arrangement. -/
def awR (Q K : ShQKV.Idx → EReal) (vl : ShLen.Idx → BitVec 32) : ShAw.Idx → EReal :=
  fun i => rAw (rS Q K vl (i 0) (i 1)) (i 2)
/-- The context array, reference's arrangement. -/
def ctxR (Q K V : ShQKV.Idx → EReal) (vl : ShLen.Idx → BitVec 32) : ShQKV.Idx → EReal :=
  fun i => rCtx (rS Q K vl (i 0) (i 1)) (matOf V (i 0)) (i 2)

end Cert.Attn

end
-- ==== Proof.KernelP.lean ====
/-
  The kernel body's softmax numerators, and its two layout-only payloads, read at an index at the ideal instance.

  For a query block `xq : [1, 512, 256]`, a key block `xk : [1, 2048, 256]` and the valid-length word `w`, the body's
  `exp` value at (row r, key position k) is the numerator `kP` of row r's scores: the matmul of the scaled query row
  with the key rows, the iota-against-`w` mask with the sentinel, the row maximum folded from −∞, the difference, `exp`.
  The bf16 copy of a value block and the leading-unit-axis cast of the context block only re-index.
-/
import proofs.«420353_j32435593020205_2_alg».proof.Proof.Gen.KernelIdeal.Skeleton
import proofs.«420353_j32435593020205_2_alg».proof.Proof.RowDefs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Ker

open Idealize.ShloMosaic Idealize.ShloMosaic.ValueIdx Cert.KernelIdeal Cert.KernelIdeal.Gen Cert.Attn

/-- Row `r` of a [1, 512, 256] query block. -/
def qrow (xq : Vec Ideal S1x512x256 .f32) (r : Fin 512) : Fin 256 → EReal := fun d => xq (ix3 (0 : Fin 1) r d)
/-- A [1, 2048, 256] block as 2048 rows. -/
def kmat (xk : Vec Ideal S1x2048x256 .f32) : Fin 2048 → Fin 256 → EReal := fun k d => xk (ix3 (0 : Fin 1) k d)
/-- A [2048, 256] bf16 block as 2048 rows (a bf16 value is the extended real itself). -/
def vmat (xv : Vec Ideal S2048x256 .bf16) : Fin 2048 → Fin 256 → EReal := fun k d => xv (ix2 k d)

/-- The body's scores of row `r`. -/
def bS (w : BitVec 32) (xq : Vec Ideal S1x512x256 .f32) (xk : Vec Ideal S1x2048x256 .f32) (r : Fin 512) : Fin 2048 → EReal :=
  kScore (qrow xq r) (kmat xk) (maskOf w)

/-! ## The score matmul read at an index -/

/-- The left operand's row coordinate is the result's row; its feature coordinate is the contraction's. The right
    operand's row coordinate is the result's column; its feature coordinate is the contraction's. -/
private theorem lhs_qk_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
private theorem lhs_qk_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
private theorem rhs_qk_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
private theorem rhs_qk_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The score matmul at (r, k): the sum over the 256 features of the left row `r` times the right row `k`. -/
private theorem qk_apply (A : FVec Ideal S512x256 .f32) (B : FVec Ideal S2048x256 .f32) (r : Fin 512) (k : Fin 2048) :
    matmul dot_S512x256_S2048x256_S512x2048_1_1_0_0_n_n (some .fp32) A B (constant (F := Ideal) S512x2048 .f32 0x00000000#32) (ix2 r k)
      = ∑ d : Fin 256, A (ix2 r d) * B (ix2 k d) := by
  refine (Ideal.matmul_constant_zero_apply dot_S512x256_S2048x256_S512x2048_1_1_0_0_n_n (some .fp32) A B (ix2 r k)).trans ?_
  rw [← Equiv.sum_comp (contrEquiv1 dot_S512x256_S2048x256_S512x2048_1_1_0_0_n_n 256 rfl rfl).symm]
  refine Finset.sum_congr rfl fun d _ => ?_
  have hk := contrEquiv1_symm_val dot_S512x256_S2048x256_S512x2048_1_1_0_0_n_n 256 rfl rfl d
  have el : dot_S512x256_S2048x256_S512x2048_1_1_0_0_n_n.lhsIdx (ix2 r k) ((contrEquiv1 dot_S512x256_S2048x256_S512x2048_1_1_0_0_n_n 256 rfl rfl).symm d) = ix2 r d := funext fun a => Fin.ext (by
    match a with
    | ⟨0, _⟩ => exact lhs_qk_0 _ _
    | ⟨1, _⟩ => exact (lhs_qk_1 _ _).trans hk)
  have er : dot_S512x256_S2048x256_S512x2048_1_1_0_0_n_n.rhsIdx (ix2 r k) ((contrEquiv1 dot_S512x256_S2048x256_S512x2048_1_1_0_0_n_n 256 rfl rfl).symm d) = ix2 k d := funext fun a => Fin.ext (by
    match a with
    | ⟨0, _⟩ => exact rhs_qk_0 _ _
    | ⟨1, _⟩ => exact (rhs_qk_1 _ _).trans hk)
  rw [el, er]

/-! ## The keepdims column forms -/

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The masked scores, their row maximum, the numerators -/

/-- The body's masked scores as a [512, 2048] block: the matmul of the scaled query rows with the key rows where the
    key position is below `w`, the sentinel elsewhere. -/
private def sBlk (w : BitVec 32) (xq : Vec Ideal S1x512x256 .f32) (xk : Vec Ideal S1x2048x256 .f32) : FVec Ideal S512x2048 .f32 :=
  select (cmpi .slt (iota .tc S512x2048 32 [1] iota_S512x2048_d1_w32) (broadcast S512x2048 w))
    (matmul dot_S512x256_S2048x256_S512x2048_1_1_0_0_n_n (some .fp32)
      (mulf (shapeCast S512x256 xq shapeCasts_S1x512x256_S512x256 : FVec Ideal S512x256 .f32) (broadcast S512x256 (Scalar.ofBits .f32 0x3D800000#32)))
      (shapeCast S2048x256 xk shapeCasts_S1x2048x256_S2048x256 : FVec Ideal S2048x256 .f32) (constant (F := Ideal) S512x2048 .f32 0x00000000#32))
    (broadcast S512x2048 (Scalar.ofBits .f32 0xC9742400#32))

/-- The block at (r, k) is row `r`'s score at `k`. -/
private theorem sBlk_apply (w : BitVec 32) (xq : Vec Ideal S1x512x256 .f32) (xk : Vec Ideal S1x2048x256 .f32) (r : Fin 512) (k : Fin 2048) :
    sBlk w xq xk (ix2 r k) = bS w xq xk r k := by
  have hm : cmpi .slt (iota .tc S512x2048 32 [1] iota_S512x2048_d1_w32) (broadcast S512x2048 w) (ix2 r k) = maskOf w k := by
    show IntOp.cmpi .slt (iota .tc S512x2048 32 [1] iota_S512x2048_d1_w32 (ix2 r k)) w = _
    rw [iota_single_apply]; rfl
  have hs : matmul dot_S512x256_S2048x256_S512x2048_1_1_0_0_n_n (some .fp32)
      (mulf (shapeCast S512x256 xq shapeCasts_S1x512x256_S512x256 : FVec Ideal S512x256 .f32) (broadcast S512x256 (Scalar.ofBits .f32 0x3D800000#32)))
      (shapeCast S2048x256 xk shapeCasts_S1x2048x256_S2048x256 : FVec Ideal S2048x256 .f32) (constant (F := Ideal) S512x2048 .f32 0x00000000#32) (ix2 r k)
        = ∑ d : Fin 256, (qrow xq r d * Ideal.ofBits .f32 0x3D800000#32) * kmat xk k d := by
    refine (qk_apply _ _ r k).trans (Finset.sum_congr rfl fun d _ => ?_)
    show (shapeCast S512x256 xq _ (ix2 r d) * Ideal.ofBits .f32 0x3D800000#32) * shapeCast S2048x256 xk _ (ix2 k d) = _
    rw [shapeCast_1ab_ab_apply, shapeCast_1ab_ab_apply]; rfl
  show Scalar.select _ _ _ = Scalar.select _ _ _
  rw [hm, hs]; rfl

/-- The lane maximum of the block at row `r` is the row's maximum: the fold of `max` from −∞ over the 2048 key positions. -/
private theorem rowMax_apply (w : BitVec 32) (xq : Vec Ideal S1x512x256 .f32) (xk : Vec Ideal S1x2048x256 .f32) (r : Fin 512) :
    multiReduction (F := Ideal) .maximumf [1] S512 (sBlk w xq xk) 0xFF800000#32 reduces_S512x2048_S512 (.inl rfl) rfl (ix1 r)
      = kMax (bS w xq xk r) := by
  refine (Ideal.multiReduction_maximumf_single (sBlk w xq xk) 0xFF800000#32 reduces_S512x2048_S512 (.inl rfl) rfl (ix1 r)).trans ?_
  have hf : (sBlk w xq xk ∘ reduces_S512x2048_S512.lift (ix1 r)) = bS w xq xk r := funext fun k => by
    have hi : reduces_S512x2048_S512.lift (ix1 r) k = ix2 r k := funext fun a => Fin.ext (by
      match a with
      | ⟨0, _⟩ => rfl
      | ⟨1, _⟩ => rfl)
    show sBlk w xq xk (reduces_S512x2048_S512.lift (ix1 r) k) = _
    rw [hi]; exact sBlk_apply w xq xk r k
  exact congrArg (fun f => (Finset.univ : Finset (Fin 2048)).fold max (Ideal.ofBits .f32 0xFF800000#32) f) hf

/-- The body's `exp` value at (r, k) is row `r`'s numerator at `k`. -/
theorem pay3_apply (w : BitVec 32) (xq : Vec Ideal S1x512x256 .f32) (xk : Vec Ideal S1x2048x256 .f32) (r : Fin 512) (k : Fin 2048) :
    k0_pay3 (F := Ideal) w xq xk (ix2 r k) = kP (bS w xq xk r) k := by
  have hpay : k0_pay3 (F := Ideal) w xq xk = exp (subf (sBlk w xq xk)
      (broadcastTo S512x2048 (shapeCast S512x1 (multiReduction (F := Ideal) .maximumf [1] S512 (sBlk w xq xk) 0xFF800000#32
        reduces_S512x2048_S512 (.inl rfl) rfl) shapeCasts_S512_S512x1) broadcasts_S512x1_S512x2048)) := rfl
  rw [hpay]
  show Ideal.exp (sBlk w xq xk (ix2 r k) - broadcastTo S512x2048 (shapeCast S512x1 (multiReduction (F := Ideal) .maximumf [1] S512 (sBlk w xq xk) 0xFF800000#32
        reduces_S512x2048_S512 (.inl rfl) rfl) shapeCasts_S512_S512x1) broadcasts_S512x1_S512x2048 (ix2 r k)) = Ideal.exp (bS w xq xk r k - kMax (bS w xq xk r))
  rw [sBlk_apply, broadcastTo_a1_ab_apply, shapeCast_a_a1_apply, rowMax_apply]

/-- The bf16 copy of a [1, 2048, 256] block reads (k, d) at (0, k, d). -/
theorem pay2_apply (x : Vec Ideal S1x2048x256 .f32) (k : Fin 2048) (d : Fin 256) :
    k0_pay2 (F := Ideal) x (ix2 k d) = x (ix3 (0 : Fin 1) k d) := by
  unfold k0_pay2
  refine (congrFun (shapeCast_self _ _) (ix2 k d)).trans ?_
  exact shapeCast_1ab_ab_apply x _ k d

/-- The context block stored as [1, 512, 256] reads (0, r, d) at (r, d). -/
theorem pay1_apply (v : FVec Ideal S512x256 .f32) (r : Fin 512) (d : Fin 256) :
    k0_pay1 (F := Ideal) v (ix3 (0 : Fin 1) r d) = v (ix2 r d) := by
  unfold k0_pay1
  exact shapeCast_ab_1ab_apply v _ (0 : Fin 1) r d

end Cert.Attn.Ker

end
-- ==== Proof.KernelOut.lean ====
/-
  The kernel body's two stored blocks read at an index at the ideal instance, over its numerators (`pay3_apply`).

  The reciprocal column is `1 / ∑_k p` of each row (a lane sum, a keepdims cast, a division); the attention-weight block
  is numerator times the row's reciprocal; the context block is the matmul of the numerators (as bf16: the same
  extended reals) with the value rows, times the row's reciprocal.
-/
import proofs.«420353_j32435593020205_2_alg».proof.Proof.KernelP

noncomputable section

open scoped BigOperators

namespace Cert.Attn.Ker

open Idealize.ShloMosaic Idealize.ShloMosaic.ValueIdx Cert.KernelIdeal Cert.KernelIdeal.Gen Cert.Attn

/-! ## The keepdims column: a vector cast to a one-column matrix, and that column broadcast along the rows -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The lane sum of a [512, 2048] block -/

/-- The sum over the key positions of a [512, 2048] block, at row `r`. -/
private theorem laneSum_apply (src : FVec Ideal S512x2048 .f32) (h : S512x2048.Reduces [1] S512)
    (hφ : FKind.Formats .f32) (hacc : (0x00000000#32 : BitVec 32) = FKind.add.neutral .f32 hφ) (r : Fin 512) :
    multiReduction (F := Ideal) .add [1] S512 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The reciprocal column at row `r`. -/
theorem pay4_apply (w : BitVec 32) (xq : Vec Ideal S1x512x256 .f32) (xk : Vec Ideal S1x2048x256 .f32) (r : Fin 512) :
    k0_pay4 (F := Ideal) w xq xk (ix2 r (0 : Fin 1)) = kInv (bS w xq xk r) := by
  unfold k0_pay4
  show Ideal.div (Ideal.ofBits .f32 0x3F800000#32) _ = _
  unfold kInv
  refine congrArg (Ideal.div (Ideal.ofBits .f32 0x3F800000#32)) ?_
  refine (shapeCast_a_a1_apply _ _ r (0 : Fin 1)).trans ?_
  refine (laneSum_apply _ _ _ _ r).trans ?_
  exact Finset.sum_congr rfl fun k _ => pay3_apply w xq xk r k

/-- The attention-weight block at (0, r, k). -/
theorem pay5_apply (w : BitVec 32) (xq : Vec Ideal S1x512x256 .f32) (xk : Vec Ideal S1x2048x256 .f32) (r : Fin 512) (k : Fin 2048) :
    k0_pay5 (F := Ideal) w xq xk (ix3 (0 : Fin 1) r k) = kAw (bS w xq xk r) k := by
  unfold k0_pay5
  refine (shapeCast_ab_1ab_apply _ _ (0 : Fin 1) r k).trans ?_
  show k0_pay3 (F := Ideal) w xq xk (ix2 r k)
      * broadcastTo S512x2048 (k0_pay4 (F := Ideal) w xq xk) broadcasts_S512x1_S512x2048 (ix2 r k) = _
  unfold kAw
  exact congrArg₂ (· * ·) (pay3_apply w xq xk r k)
    ((broadcastTo_a1_ab_apply _ _ r k).trans (pay4_apply w xq xk r))

/-! ## The second matmul's operand indices: the contraction runs over the key positions

The left operand [512, 2048] is contracted on its axis 1, the right operand [2048, 256] on its axis 0; the result's
row is the left operand's, its column the right operand's. -/

/-- The left operand's row is the result's row. -/
private theorem lhs_ctx_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- The left operand's column is the contraction position. -/
private theorem lhs_ctx_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
/-- The right operand's row is the contraction position. -/
private theorem rhs_ctx_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
/-- The right operand's column is the result's column. -/
private theorem rhs_ctx_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The second matmul into the zero block, at (r, d): the sum over the key positions of left (r, k) times right (k, d). -/
private theorem ctxMatmul_apply (lhs : FVec Ideal S512x2048 .bf16) (rhs : FVec Ideal S2048x256 .bf16) (r : Fin 512) (d : Fin 256) :
    matmul (F := Ideal) dot_S512x2048_S2048x256_S512x256_1_0_0_1_n_n none lhs rhs (constant (F := Ideal) S512x256 .f32 0x00000000#32) (ix2 r d)
      = ∑ k : Fin 2048, lhs (ix2 r k) * rhs (ix2 k d) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r d) ((contrEquiv1 dot_S512x2048_S2048x256_S512x256_1_0_0_1_n_n 2048 rfl rfl).symm k) = ix2 r k := funext fun a => Fin.ext (by
    match a with
    | ⟨0, _⟩ => exact lhs_ctx_0 _ _
    | ⟨1, _⟩ => exact (lhs_ctx_1 _ _).trans hk)
  have er : dot_S512x2048_S2048x256_S512x256_1_0_0_1_n_n.rhsIdx (ix2 r d) ((contrEquiv1 dot_S512x2048_S2048x256_S512x256_1_0_0_1_n_n 2048 rfl rfl).symm k) = ix2 k d := funext fun a => Fin.ext (by
    match a with
    | ⟨0, _⟩ => exact (rhs_ctx_0 _ _).trans hk
    | ⟨1, _⟩ => exact rhs_ctx_1 _ _)
  rw [el, er]

/-- The context block at (r, d). -/
theorem pay6_apply (w : BitVec 32) (xq : Vec Ideal S1x512x256 .f32) (xk : Vec Ideal S1x2048x256 .f32)
    (xv : Vec Ideal S2048x256 .bf16) (r : Fin 512) (d : Fin 256) :
    k0_pay6 (F := Ideal) w xq xk xv (ix2 r d) = kCtx (bS w xq xk r) (vmat xv) d := by
  unfold k0_pay6
  show matmul (F := Ideal) dot_S512x2048_S2048x256_S512x256_1_0_0_1_n_n none (truncf .bf16 (k0_pay3 (F := Ideal) w xq xk) bitsLt_bf16_f32) xv
        (constant (F := Ideal) S512x256 .f32 0x00000000#32) (ix2 r d)
      * broadcastTo S512x256 (k0_pay4 (F := Ideal) w xq xk) broadcasts_S512x1_S512x256 (ix2 r d) = _
  unfold kCtx
  refine congrArg₂ (· * ·) ?_ ((broadcastTo_a1_ab_apply _ _ r d).trans (pay4_apply w xq xk r))
  refine (ctxMatmul_apply _ _ r d).trans ?_
  refine Finset.sum_congr rfl fun k _ => ?_
  show k0_pay3 (F := Ideal) w xq xk (ix2 r k) * xv (ix2 k d) = _
  exact congrArg (· * vmat xv k d) (pay3_apply w xq xk r k)

end Cert.Attn.Ker

end
-- ==== Proof.KernelValue.lean ====
/-
  The two result arrays of the idealized kernel, as whole-array functions of the argument arrays.

  Point `t` = (batch b = t / 4, tile t % 4) writes back, to rows `(t % 4) · 512 + r` of batch `b`, the attention weights and
  the context of those query rows against batch `b`'s keys, values and length word: the block the point is handed of
  each input is that batch's (and, for the queries, that tile's) part of the array, and the body's payloads at an index
  are the kernel arrangement of one attention row. The 64 blocks tile each result array, so after the run the arrays
  hold the kernel arrangement of every row.
-/
import proofs.«420353_j32435593020205_2_alg».proof.Proof.Invariant
import proofs.«420353_j32435593020205_2_alg».proof.Proof.KernelOut
import Idealize.ShloMosaic.Lib.Pipeline.Value

noncomputable section

namespace Cert.Attn.KV

open Idealize.ShloMosaic Idealize.ShloMosaic.TcCoe Idealize.SL.Sem Cert.KernelIdeal Cert.KernelIdeal.Gen Idealize.ShloMosaic.ValueIdx
open Idealize.ShloMosaic.Pipeline (Dat)
open Cert.Attn Cert.Attn.Pc Cert.Attn.Inv Cert.Attn.Ker

variable (m : (ℓ : Loc nD τ sig) → Buf (Elt Ideal) ℓ) (ρ : Dev nD → PrngReg)

/-- No index map reads the prefetched table, so the pipeline's side condition on it is empty. -/
theorem okT : Ok m := by unfold Ok ok0; trivial

theorem N64 : (cfgM m (okT m)).N = 64 := N_0

/-- The batch of point `t`. -/
def bt (t : Fin (cfgM m (okT m)).N) : Fin 16 := ⟨t.val / 4, by have := t.isLt; have := N64 m; omega⟩
/-- The array row of row `r` of point `t`'s query tile. -/
def qt (t : Fin (cfgM m (okT m)).N) (r : Fin 512) : Fin 2048 := ⟨t.val % 4 * 512 + r.val, by have := r.isLt; omega⟩

/-- The query block at point `t`: rows of the tile, of the batch. -/
theorem qblk_apply (c : Dev nD) (t : Fin (cfgM m (okT m)).N) (r : Fin 512) (d : Fin 256) :
    qblk m (okT m) c t (ix3 (0 : Fin 1) r d) = V m c main_arg0 (ix3 (bt m t) (qt m t r) d) := by
  obtain ⟨_, _, e0, e1, e2, _⟩ := idx_facts t
  show V m c main_arg0 ((((cfgM m (okT m)).win 0).blk t).view.emb (ix3 (0 : Fin 1) r d)) = _
  congr 1
  funext a
  apply Fin.ext
  match a with
  | ⟨0, _⟩ => show cc0_transform_0 (grid0.coords t) 0 * 1 + 1 * 0 = t.val / 4; omega
  | ⟨1, _⟩ => show cc0_transform_0 (grid0.coords t) 1 * 512 + 1 * r.val = t.val % 4 * 512 + r.val; omega
  | ⟨2, _⟩ => show cc0_transform_0 (grid0.coords t) 2 * 256 + 1 * d.val = d.val; omega

/-- The key block at point `t`: the batch's keys. -/
theorem kblk_apply (c : Dev nD) (t : Fin (cfgM m (okT m)).N) (k : Fin 2048) (d : Fin 256) :
    kblk m (okT m) c t (ix3 (0 : Fin 1) k d) = V m c main_arg1 (ix3 (bt m t) k d) := by
  obtain ⟨_, _, _, _, _, e0, e1, e2, _⟩ := idx_facts t
  show V m c main_arg1 ((((cfgM m (okT m)).win 1).blk t).view.emb (ix3 (0 : Fin 1) k d)) = _
  congr 1
  funext a
  apply Fin.ext
  match a with
  | ⟨0, _⟩ => show cc0_transform_1 (grid0.coords t) 0 * 1 + 1 * 0 = t.val / 4; omega
  | ⟨1, _⟩ => show cc0_transform_1 (grid0.coords t) 1 * 2048 + 1 * k.val = k.val; omega
  | ⟨2, _⟩ => show cc0_transform_1 (grid0.coords t) 2 * 256 + 1 * d.val = d.val; omega

/-- The value block at point `t`: the batch's values. -/
theorem vblk_apply' (c : Dev nD) (t : Fin (cfgM m (okT m)).N) (k : Fin 2048) (d : Fin 256) :
    vblk m (okT m) c t (ix3 (0 : Fin 1) k d) = V m c main_arg2 (ix3 (bt m t) k d) := by
  rw [vblk_apply]
  rfl

/-- The length word at point `t`: the batch's entry of the length array. -/
theorem word_apply (c : Dev nD) (t : Fin (cfgM m (okT m)).N) :
    wordAt m (okT m) c t = V m c main_arg3 (ix1 (bt m t)) := by
  obtain ⟨e0, _⟩ := idx_facts t
  obtain rfl : c = 0 := Subsingleton.elim _ _
  refine (lenWord_eq (F := Ideal) 0 (grid0.coords t) (tbl m 0)).trans ?_
  show V m 0 main_arg3 (ix1 ((grid0.coords t) 0)) = _
  congr 1
  funext a
  apply Fin.ext
  match a with
  | ⟨0, _⟩ => exact e0

/-! ## The attention weights (output window 3) -/

/-- The result array: the kernel arrangement of every row, over the arrays the region finds. -/
abbrev Gaw (c : Dev nD) : ShAw.Idx → EReal := awK (V m c main_arg0) (V m c main_arg1) (V m c main_arg3)
/-- The context array likewise. -/
abbrev Gctx (c : Dev nD) : ShQKV.Idx → EReal := ctxK (V m c main_arg0) (V m c main_arg1) (V m c main_arg2) (V m c main_arg3)

/-- The body's scores of row `r` at point `t` are the array's scores of row (batch, tile row). -/
theorem bS_eq (c : Dev nD) (t : Fin (cfgM m (okT m)).N) (r : Fin 512) :
    bS (wordAt m (okT m) c t) (qblk m (okT m) c t) (kblk m (okT m) c t) r
      = kS (V m c main_arg0) (V m c main_arg1) (V m c main_arg3) (bt m t) (qt m t r) := by
  unfold bS kS
  have e1 : qrow (qblk m (okT m) c t) r = rowOf (V m c main_arg0) (bt m t) (qt m t r) := funext fun d => qblk_apply m c t r d
  have e2 : kmat (kblk m (okT m) c t) = matOf (V m c main_arg1) (bt m t) := funext fun k => funext fun d => kblk_apply m c t k d
  rw [e1, e2, word_apply]

/-- Where point `t`'s attention-weight block sits in the array. -/
theorem emb3 (t : Fin (cfgM m (okT m)).N) (r : Fin 512) (k : Fin 2048) :
    (((cfgM m (okT m)).win 3).blk t).view.emb (ix3 (0 : Fin 1) r k) = (ix3 (bt m t) (qt m t r) k : S16x2048x2048.Idx) := by
  obtain ⟨_, _, _, _, _, _, _, _, _, _, _, e0, e1, e2, _⟩ := idx_facts t
  funext a
  apply Fin.ext
  match a with
  | ⟨0, _⟩ => show cc0_transform_3 (grid0.coords t) 0 * 1 + 1 * 0 = t.val / 4; omega
  | ⟨1, _⟩ => show cc0_transform_3 (grid0.coords t) 1 * 512 + 1 * r.val = t.val % 4 * 512 + r.val; omega
  | ⟨2, _⟩ => show cc0_transform_3 (grid0.coords t) 2 * 2048 + 1 * k.val = k.val; omega

/-- What point `t` writes back to the attention weights is block `t` of the array function. -/
theorem flushed3_eq (c : Dev nD) (t : Fin (cfgM m (okT m)).N) :
    (dats m (okT m) 0 c).flushed 3 t = (((cfgM m (okT m)).win 3).blk t).view.read (Elt Ideal) (Gaw m c) := by
  show ((cfgM m (okT m)).win 3).cut (grid0.coords t) ((dats m (okT m) 0 c).after 3 t) = _
  rw [after0_3, outs_eq]
  refine funext fun (y : S1x512x2048.Idx) => ?_
  obtain ⟨a, r, k, rfl⟩ : ∃ (a : Fin 1) (r : Fin 512) (k : Fin 2048), y = ix3 a r k := ⟨y 0, y 1, y 2, eq_ix3 y⟩
  obtain rfl : a = 0 := Subsingleton.elim _ _
  show k0_pay5 (F := Ideal) (wordAt m (okT m) c t) (qblk m (okT m) c t) (kblk m (okT m) c t) (ix3 (0 : Fin 1) r k)
    = Gaw m c ((((cfgM m (okT m)).win 3).blk t).view.emb (ix3 (0 : Fin 1) r k))
  rw [emb3]
  refine (pay5_apply _ _ _ r k).trans ?_
  show _ = kAw (kS (V m c main_arg0) (V m c main_arg1) (V m c main_arg3) (bt m t) (qt m t r)) k
  rw [bS_eq]

set_option backward.isDefEq.respectTransparency.types false in
/-- The 64 blocks tile the attention-weight array: row `q` of batch `b` is in the block of point `4 b + q / 512`. -/
theorem cover3 (i : S16x2048x2048.Idx) :
    ∃ t : Fin (cfgM m (okT m)).N, ((cfgM m (okT m)).win 3).flush t = true ∧ i ∈ (((cfgM m (okT m)).win 3).blk t).view.set := by
  have h0 : (i 0).val < 16 := (i 0).isLt
  have h1 : (i 1).val < 2048 := (i 1).isLt
  have h2 : (i 2).val < 2048 := (i 2).isLt
  have hN := N64 m
  obtain ⟨t, ht⟩ : ∃ t : Fin (cfgM m (okT m)).N, t.val = (i 0).val * 4 + (i 1).val / 512 := ⟨⟨_, by omega⟩, rfl⟩
  refine ⟨t, flush0_3 (adm m (okT m)) t, ?_⟩
  obtain ⟨_, _, _, _, _, _, _, _, _, _, _, e0, e1, e2, _⟩ := idx_facts t
  show i ∈ ((View.whole main_v0_0).slice (((cfgM m (okT m)).win 3).rect t)).set
  rw [View.set_slice_whole]
  refine Rect.mem_set_unit.mpr ?_
  intro a
  match a with
  | ⟨0, _⟩ =>
    show cc0_transform_3 (grid0.coords t) 0 * 1 ≤ (i 0).val ∧ (i 0).val < cc0_transform_3 (grid0.coords t) 0 * 1 + 1
    omega
  | ⟨1, _⟩ =>
    show cc0_transform_3 (grid0.coords t) 1 * 512 ≤ (i 1).val ∧ (i 1).val < cc0_transform_3 (grid0.coords t) 1 * 512 + 512
    omega
  | ⟨2, _⟩ =>
    show cc0_transform_3 (grid0.coords t) 2 * 2048 ≤ (i 2).val ∧ (i 2).val < cc0_transform_3 (grid0.coords t) 2 * 2048 + 2048
    omega

/-- The attention-weight array after the run. -/
theorem final3 (c : Dev nD) : (dats m (okT m) 0 c).arrAt 3 (cfgM m (okT m)).N = Gaw m c :=
  (dats m (okT m) 0 c).arrAt_eq_of_cover 3 (Gaw m c) (fun t _ => flushed3_eq m c t) (cover3 m)

/-! ## The context (output window 4) -/

/-- The scratch's rows at point `t` are the batch's value rows. -/
theorem vmat_eq (c : Dev nD) (t : Fin (cfgM m (okT m)).N) :
    vmat (k0_pay2 (F := Ideal) (vblk m (okT m) c t)) = matOf (V m c main_arg2) (bt m t) :=
  funext fun k => funext fun d => (pay2_apply _ k d).trans (vblk_apply' m c t k d)

/-- Where point `t`'s context block sits in the array. -/
theorem emb4 (t : Fin (cfgM m (okT m)).N) (r : Fin 512) (d : Fin 256) :
    (((cfgM m (okT m)).win 4).blk t).view.emb (ix3 (0 : Fin 1) r d) = (ix3 (bt m t) (qt m t r) d : S16x2048x256.Idx) := by
  obtain ⟨_, _, _, _, _, _, _, _, _, _, _, _, _, _, e0, e1, e2⟩ := idx_facts t
  funext a
  apply Fin.ext
  match a with
  | ⟨0, _⟩ => show cc0_transform_4 (grid0.coords t) 0 * 1 + 1 * 0 = t.val / 4; omega
  | ⟨1, _⟩ => show cc0_transform_4 (grid0.coords t) 1 * 512 + 1 * r.val = t.val % 4 * 512 + r.val; omega
  | ⟨2, _⟩ => show cc0_transform_4 (grid0.coords t) 2 * 256 + 1 * d.val = d.val; omega

/-- What point `t` writes back to the context is block `t` of the array function. -/
theorem flushed4_eq (c : Dev nD) (t : Fin (cfgM m (okT m)).N) :
    (dats m (okT m) 0 c).flushed 4 t = (((cfgM m (okT m)).win 4).blk t).view.read (Elt Ideal) (Gctx m c) := by
  show ((cfgM m (okT m)).win 4).cut (grid0.coords t) ((dats m (okT m) 0 c).after 4 t) = _
  rw [after0_4, outs_eq]
  refine funext fun (y : S1x512x256.Idx) => ?_
  obtain ⟨a, r, d, rfl⟩ : ∃ (a : Fin 1) (r : Fin 512) (d : Fin 256), y = ix3 a r d := ⟨y 0, y 1, y 2, eq_ix3 y⟩
  obtain rfl : a = 0 := Subsingleton.elim _ _
  show k0_pay1 (F := Ideal) (k0_pay6 (wordAt m (okT m) c t) (qblk m (okT m) c t) (kblk m (okT m) c t) (k0_pay2 (vblk m (okT m) c t))) (ix3 (0 : Fin 1) r d)
    = Gctx m c ((((cfgM m (okT m)).win 4).blk t).view.emb (ix3 (0 : Fin 1) r d))
  rw [emb4]
  refine (pay1_apply _ r d).trans ((pay6_apply _ _ _ _ r d).trans ?_)
  show _ = kCtx (kS (V m c main_arg0) (V m c main_arg1) (V m c main_arg3) (bt m t) (qt m t r)) (matOf (V m c main_arg2) (bt m t)) d
  rw [bS_eq, vmat_eq]

set_option backward.isDefEq.respectTransparency.types false in
/-- The 64 blocks tile the context array. -/
theorem cover4 (i : S16x2048x256.Idx) :
    ∃ t : Fin (cfgM m (okT m)).N, ((cfgM m (okT m)).win 4).flush t = true ∧ i ∈ (((cfgM m (okT m)).win 4).blk t).view.set := by
  have h0 : (i 0).val < 16 := (i 0).isLt
  have h1 : (i 1).val < 2048 := (i 1).isLt
  have h2 : (i 2).val < 256 := (i 2).isLt
  have hN := N64 m
  obtain ⟨t, ht⟩ : ∃ t : Fin (cfgM m (okT m)).N, t.val = (i 0).val * 4 + (i 1).val / 512 := ⟨⟨_, by omega⟩, rfl⟩
  refine ⟨t, flush0_4 (adm m (okT m)) t, ?_⟩
  obtain ⟨_, _, _, _, _, _, _, _, _, _, _, _, _, _, e0, e1, e2⟩ := idx_facts t
  show i ∈ ((View.whole main_v0_1).slice (((cfgM m (okT m)).win 4).rect t)).set
  rw [View.set_slice_whole]
  refine Rect.mem_set_unit.mpr ?_
  intro a
  match a with
  | ⟨0, _⟩ =>
    show cc0_transform_4 (grid0.coords t) 0 * 1 ≤ (i 0).val ∧ (i 0).val < cc0_transform_4 (grid0.coords t) 0 * 1 + 1
    omega
  | ⟨1, _⟩ =>
    show cc0_transform_4 (grid0.coords t) 1 * 512 ≤ (i 1).val ∧ (i 1).val < cc0_transform_4 (grid0.coords t) 1 * 512 + 512
    omega
  | ⟨2, _⟩ =>
    show cc0_transform_4 (grid0.coords t) 2 * 256 ≤ (i 2).val ∧ (i 2).val < cc0_transform_4 (grid0.coords t) 2 * 256 + 256
    omega

/-- The context array after the run. -/
theorem final4 (c : Dev nD) : (dats m (okT m) 0 c).arrAt 4 (cfgM m (okT m)).N = Gctx m c :=
  (dats m (okT m) 0 c).arrAt_eq_of_cover 4 (Gctx m c) (fun t _ => flushed4_eq m c t) (cover4 m)

/-! ## The run, read -/

/-- Every weakly fair execution of the idealized kernel terminates with the two result arrays at the kernel arrangement of
    the attention rows of the argument arrays, and the arguments unchanged. -/
theorem run : θ_run defs (onTc (τ := τ) (main (F := Ideal))) ⟨m, fun _ => 0, ρ⟩ fun r => ∀ c : Dev nD,
      r.2.mem ((c.tc : Thread nD τ).loc main_v0_0) = awK (m ((c.tc : Thread nD τ).loc main_arg0)) (m ((c.tc : Thread nD τ).loc main_arg1)) (m ((c.tc : Thread nD τ).loc main_arg3))
      ∧ r.2.mem ((c.tc : Thread nD τ).loc main_v0_1) = ctxK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final3 m c), ((h c).1 4).trans (final4 m c),
      ((h c).1 0).trans (((dats m (okT m) 0 c).arrAt_in 0 rfl _).trans ((A_eq m (okT m) c 0).trans (V_main_arg0 m c))),
      ((h c).1 1).trans (((dats m (okT m) 0 c).arrAt_in 1 rfl _).trans ((A_eq m (okT m) c 1).trans (V_main_arg1 m c))),
      ((h c).1 2).trans (((dats m (okT m) 0 c).arrAt_in 2 rfl _).trans ((A_eq m (okT m) c 2).trans (V_main_arg2 m c))),
      ((h c).2 main_arg3 (by decide : main_arg3 ∈ Pipeline.restRefs sig spec0)).trans (V_main_arg3 m c)⟩)
    (run_main m ρ (okT m))

end Cert.Attn.KV

end
-- ==== Proof.RefRow.lean ====
/-
  The reference's two results, one host operation at a time, are the reference arrangement of the attention rows.

  Element (b, r, k) of the weights is `rAw` of row (b, r)'s scores at k, and element (b, r, d) of the context is `rCtx`
  of that row against batch b's values: the dot product over d, the division by √256, the iota-against-length mask
  with the sentinel, the maximum folded from −∞ and maxed with −∞ again, the exponential of the difference, the sum
  from 0, the quotient, and the dot product over the key positions.
-/
import proofs.«420353_j32435593020205_2_alg».proof.Proof.Gen.ReferenceIdeal.Read
import proofs.«420353_j32435593020205_2_alg».proof.Proof.RowDefs
import Idealize.ShloMosaic.Lib.ValueIdx
import Idealize.ShloMosaic.Lib.Pipeline.Value
import Idealize.ShloMosaic.PureOps.Ideal.Laws

noncomputable section

open scoped BigOperators

namespace Cert.Attn.Ref

open Idealize.ShloMosaic Idealize.ShloMosaic.ValueIdx Cert.ReferenceIdeal Cert.ReferenceIdeal.Read Cert.Attn

/-- The scaled dot product at (b, r, k): row (b, r) of the queries against row (b, k) of the keys, over √256. -/
private theorem v3_at (x0 x1 : FVec Ideal S16x2048x256 .f32) (b : Fin 16) (r k : Fin 2048) :
    val_main_v3 (F := Ideal) x0 x1 (ix3 b r k)
      = Ideal.div (∑ d : Fin 256, x0 (ix3 b r d) * x1 (ix3 b k d)) (Ideal.sqrt (Ideal.ofBits .f32 0x43800000#32)) := by
  have hl : ∀ d : Fin 256, lidx_main_v0 (ix3 b r k) d = ix3 b r d := fun d =>
    funext fun a => Fin.ext (by match a with | ⟨0, _⟩ => rfl | ⟨1, _⟩ => rfl | ⟨2, _⟩ => rfl)
  have hr : ∀ d : Fin 256, ridx_main_v0 (ix3 b r k) d = ix3 b k d := fun d =>
    funext fun a => Fin.ext (by match a with | ⟨0, _⟩ => rfl | ⟨1, _⟩ => rfl | ⟨2, _⟩ => rfl)
  rw [val_main_v3_apply, val_main_v0_apply, val_main_v2_apply, val_main_v1_apply, val_main_cst_apply]
  simp only [Ideal.hostDivf_def, Ideal.hostUnary_sqrt_def, Ideal.ofBits_def, hl, hr]

/-- The mask at (b, r, k): key position k against batch b's valid length, as signed words. -/
private theorem mask_at (x3 : IVec S16 32) (b : Fin 16) (r k : Fin 2048) :
    val_main_call0_v1 (F := Ideal) x3 (ix3 b r k) = maskOf (x3 (ix1 b)) k := by
  have h6 : idx_main_v6 (idx_main_v8 (idx_main_call0_v1 (ix3 b r k))) = ix1 b :=
    funext fun a => Fin.ext (by match a with | ⟨0, _⟩ => rfl)
  rw [val_main_call0_v1_apply, val_main_v9_apply, val_main_v7_apply, val_main_v5_apply, val_main_v4_apply,
    val_main_v8_apply, val_main_v6_apply, h6]
  rfl

/-- The masked score at (b, r, k) is the reference arrangement's score of row (b, r) at k. -/
private theorem v10_at (x0 x1 : FVec Ideal S16x2048x256 .f32) (x3 : IVec S16 32) (b : Fin 16) (r k : Fin 2048) :
    val_main_v10 (F := Ideal) x0 x1 x3 (ix3 b r k) = rS x0 x1 x3 b r k := by
  rw [val_main_v10_apply, mask_at, v3_at, val_main_call0_v2_apply, val_main_call0_v0_apply, val_main_cst_0_apply]
  rfl

/-- The fold of the maximum from −∞ over the key positions of row (b, r). -/
private theorem v11_at (x0 x1 : FVec Ideal S16x2048x256 .f32) (x3 : IVec S16 32) (b : Fin 16) (r : Fin 2048) :
    val_main_v11 (F := Ideal) x0 x1 x3 (ix2 b r) = kMax (rS x0 x1 x3 b r) := by
  have h : S16x2048x2048.Reduces [2] S16x2048 := by decide
  unfold val_main_v11
  rw [Host.reduce_eq_fold_single FloatOps.maximumf _ _ Gen.reducesTo_S16x2048x2048_S16x2048_d2 h Gen.h_S_]
  have hf : (val_main_v10 (F := Ideal) x0 x1 x3 ∘ h.lift (ix2 b r)) = rS x0 x1 x3 b r := funext fun k => by
    have hk : h.lift (ix2 b r) k = @ix3 16 2048 2048 b r k :=
      funext fun c => Fin.ext (by match c with | ⟨0, _⟩ => rfl | ⟨1, _⟩ => rfl | ⟨2, _⟩ => rfl)
    exact (congrArg (val_main_v10 (F := Ideal) x0 x1 x3) hk).trans (v10_at x0 x1 x3 b r k)
  rw [hf]
  rfl

/-- The row maximum as the reference takes it: −∞ maxed with the fold. -/
private theorem v13_at (x0 x1 : FVec Ideal S16x2048x256 .f32) (x3 : IVec S16 32) (b : Fin 16) (r : Fin 2048) :
    val_main_v13 (F := Ideal) x0 x1 x3 (ix2 b r) = rMax (rS x0 x1 x3 b r) := by
  rw [val_main_v13_apply, v11_at, val_main_v12_apply, val_main_cst_2_apply]
  rfl

/-- The numerator at (b, r, k): the exponential of the score less the row maximum. -/
private theorem v17_at (x0 x1 : FVec Ideal S16x2048x256 .f32) (x3 : IVec S16 32) (b : Fin 16) (r k : Fin 2048) :
    val_main_v17 (F := Ideal) x0 x1 x3 (ix3 b r k) = rP (rS x0 x1 x3 b r) k := by
  have h15 : idx_main_v14 (idx_main_v15 (ix3 b r k)) = ix2 b r :=
    funext fun a => Fin.ext (by match a with | ⟨0, _⟩ => rfl | ⟨1, _⟩ => rfl)
  rw [val_main_v17_apply, val_main_v16_apply, v10_at, val_main_v15_apply, val_main_v14_apply, h15, v13_at]
  rfl

/-- The denominator of row (b, r): the numerators' sum from the zero word. -/
private theorem v18_at (x0 x1 : FVec Ideal S16x2048x256 .f32) (x3 : IVec S16 32) (b : Fin 16) (r : Fin 2048) :
    val_main_v18 (F := Ideal) x0 x1 x3 (ix2 b r)
      = Ideal.ofBits .f32 0x00000000#32 + ∑ k' : Fin 2048, rP (rS x0 x1 x3 b r) k' := by
  have hi : ∀ k : Fin 2048, idx_main_v18 (ix2 b r) k = ix3 b r k := fun k =>
    funext fun a => Fin.ext (by match a with | ⟨0, _⟩ => rfl | ⟨1, _⟩ => rfl | ⟨2, _⟩ => rfl)
  rw [val_main_v18_apply, val_main_cst_3_apply]
  simp only [hi, v17_at, Ideal.ofBits_def]

/-- The weight at (b, r, k). -/
private theorem v21_at (x0 x1 : FVec Ideal S16x2048x256 .f32) (x3 : IVec S16 32) (b : Fin 16) (r k : Fin 2048) :
    val_main_v21 (F := Ideal) x0 x1 x3 (ix3 b r k) = rAw (rS x0 x1 x3 b r) k := by
  have h20 : idx_main_v19 (idx_main_v20 (ix3 b r k)) = ix2 b r :=
    funext fun a => Fin.ext (by match a with | ⟨0, _⟩ => rfl | ⟨1, _⟩ => rfl)
  rw [val_main_v21_apply, v17_at, val_main_v20_apply, val_main_v19_apply, h20, v18_at]
  rfl

/-- The reference's attention weights are the reference arrangement's array. -/
theorem v21_eq (x0 x1 : FVec Ideal S16x2048x256 .f32) (x3 : IVec S16 32) :
    val_main_v21 (F := Ideal) x0 x1 x3 = awR x0 x1 x3 := by
  funext i
  obtain ⟨b, r, k, rfl⟩ : ∃ (b : Fin 16) (r : Fin 2048) (k : Fin 2048), i = ix3 b r k := ⟨i 0, i 1, i 2, eq_ix3 i⟩
  rw [v21_at]
  rfl

/-- The reference's context is the reference arrangement's array. -/
theorem v22_eq (x0 x1 x2 : FVec Ideal S16x2048x256 .f32) (x3 : IVec S16 32) :
    val_main_v22 (F := Ideal) x0 x1 x2 x3 = ctxR x0 x1 x2 x3 := by
  funext i
  obtain ⟨b, r, d, rfl⟩ : ∃ (b : Fin 16) (r : Fin 2048) (d : Fin 256), i = ix3 b r d := ⟨i 0, i 1, i 2, eq_ix3 i⟩
  have hl : ∀ k : Fin 2048, lidx_main_v22 (ix3 b r d) k = ix3 b r k := fun k =>
    funext fun a => Fin.ext (by match a with | ⟨0, _⟩ => rfl | ⟨1, _⟩ => rfl | ⟨2, _⟩ => rfl)
  have hr : ∀ k : Fin 2048, ridx_main_v22 (ix3 b r d) k = ix3 b k d := fun k =>
    funext fun a => Fin.ext (by match a with | ⟨0, _⟩ => rfl | ⟨1, _⟩ => rfl | ⟨2, _⟩ => rfl)
  rw [val_main_v22_apply]
  simp only [hl, hr, v21_at]
  rfl

end Cert.Attn.Ref

end
-- ==== Proof.Consts.lean ====
/-
  The float words the two programs and the precondition spell, as the extended reals they denote:
  1/16, 256, −10⁶, 1, −∞ and +∞ (the zero word is the library's `Ideal.ofBits_zero_f32`).
  Stated once, so that no other module opens the pattern decoder.
-/
import Idealize.ShloMosaic.PureOps.Ideal
import Idealize.ShloMosaic.PureOps.Ideal.Laws

noncomputable section

namespace Cert.Attn

open Idealize.ShloMosaic

/-- The word 0x3D800000 denotes 1/16. -/
theorem word_sixteenth : Ideal.ofBits .f32 0x3D800000#32 = ((1 / 16 : ℝ) : EReal) := by
  simp [Ideal.ofBits, Ideal.ieee, -EReal.coe_mul]; norm_num

/-- The word 0x43800000 denotes 256. -/
theorem word_256 : Ideal.ofBits .f32 0x43800000#32 = ((256 : ℝ) : EReal) := by
  simp [Ideal.ofBits, Ideal.ieee, -EReal.coe_mul]; norm_num

/-- The sentinel word 0xC9742400 denotes −10⁶. -/
theorem word_sentinel : Ideal.ofBits .f32 0xC9742400#32 = ((-1000000 : ℝ) : EReal) := by
  simp [Ideal.ofBits, Ideal.ieee, -EReal.coe_mul]; norm_num

/-- The word 0x3F800000 denotes 1. -/
theorem word_one : Ideal.ofBits .f32 0x3F800000#32 = 1 := by
  simp [Ideal.ofBits, Ideal.ieee, -EReal.coe_mul]; norm_num

/-- The word 0xFF800000 denotes −∞. -/
theorem word_neg_inf : Ideal.ofBits .f32 0xFF800000#32 = (⊥ : EReal) := by
  simp [Ideal.ofBits, Ideal.ieee]

/-- The word 0x7F800000 denotes +∞. -/
theorem word_pos_inf : Ideal.ofBits .f32 0x7F800000#32 = (⊤ : EReal) := by
  simp [Ideal.ofBits, Ideal.ieee]

end Cert.Attn

end
-- ==== Proof.RowScore.lean ====
/-
  The two arrangements of the SCORES agree on finite queries and keys, and the scores are then finite.

  With `q d` and `K k d` real, `∑_d (q d · 1/16) · K k d = (∑_d q d · K k d) / 16` is distributivity in ℝ; the word
  0x3D800000 is 1/16, the word 0x43800000 is 256 whose square root is 16, and the sentinel word 0xC9742400 is −10⁶.
  The row maximum of finitely many reals, folded from −∞, is a real, is attained, and bounds every score; and
  `max (−∞) x = x`.
-/
import proofs.«420353_j32435593020205_2_alg».proof.Proof.RowDefs
import proofs.«420353_j32435593020205_2_alg».proof.Proof.Consts

noncomputable section

open scoped BigOperators

namespace Cert.Attn

open Idealize.ShloMosaic

/-- Real-valued: every entry is (the coercion of) a real number. -/
def IsReal {ι : Type} (f : ι → EReal) : Prop := ∀ i, ∃ r : ℝ, f i = (r : EReal)

/-! ## The square root of 256 -/

/-- √256 = 16. -/
private theorem sqrt_256 : Real.sqrt 256 = 16 := by
  rw [show (256 : ℝ) = 16 ^ 2 by norm_num, Real.sqrt_sq (by norm_num)]

/-- Division by √256 is multiplication by 1/16. -/
private theorem div_sqrt_256 (x : EReal) :
    Ideal.div x (Ideal.sqrt (Ideal.ofBits .f32 0x43800000#32)) = x * ((1 / 16 : ℝ) : EReal) := by
  rw [word_256, Ideal.sqrt_coe, if_neg (by norm_num), sqrt_256, Ideal.div_coe (by norm_num)]

/-- The coercion ℝ → EReal commutes with finite sums. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The scores -/

theorem kScore_eq_rScore (q : Fin 256 → EReal) (K : Fin 2048 → Fin 256 → EReal) (μ : Fin 2048 → BitVec 1)
    (hq : IsReal q) (hK : ∀ k, IsReal (K k)) : kScore q K μ = rScore q K μ := by
  funext k
  choose qr hqr using hq
  choose Kr hKr using hK
  unfold kScore rScore
  congr 1
  rw [div_sqrt_256, word_sixteenth]
  simp only [hqr, hKr, ← EReal.coe_mul, ← coe_sum]
  congr 1
  rw [Finset.sum_mul]
  exact Finset.sum_congr rfl (fun d _ => by ring)

theorem rScore_real (q : Fin 256 → EReal) (K : Fin 2048 → Fin 256 → EReal) (μ : Fin 2048 → BitVec 1)
    (hq : IsReal q) (hK : ∀ k, IsReal (K k)) : IsReal (rScore q K μ) := by
  intro k
  choose qr hqr using hq
  choose Kr hKr using hK
  unfold rScore
  rw [div_sqrt_256, word_sentinel]
  by_cases h : μ k = 1#1
  · rw [h, ValueIdx.select_one]
    refine ⟨(∑ d : Fin 256, qr d * Kr k d) * (1 / 16), ?_⟩
    simp only [hqr, hKr, ← EReal.coe_mul, ← coe_sum]
  · rw [ValueIdx.eq_zero_of_ne_one h, ValueIdx.select_zero]
    exact ⟨_, rfl⟩

/-- `max (−∞) x = x`: the reference's extra `maximum` with the −∞ splat changes nothing. -/
theorem rMax_eq (s : Fin 2048 → EReal) : rMax s = kMax s := by
  unfold rMax
  rw [word_neg_inf]
  exact max_bot_left _

/-- The fold of `max` from −∞ is the supremum of the row. -/
private theorem kMax_eq_sup (s : Fin 2048 → EReal) : kMax s = (Finset.univ : Finset (Fin 2048)).sup s := by
  unfold kMax
  rw [word_neg_inf]
  rfl

/-- The maximum of a real-valued row is real, is attained, and bounds the row. -/
theorem kMax_real (s : Fin 2048 → EReal) (hs : IsReal s) :
    (∃ r : ℝ, kMax s = (r : EReal)) ∧ (∃ k, s k = kMax s) ∧ ∀ k, s k ≤ kMax s := by
  obtain ⟨k0, -, hk0⟩ :=
    Finset.exists_mem_eq_sup (Finset.univ : Finset (Fin 2048)) ⟨0, Finset.mem_univ _⟩ s
  refine ⟨?_, ⟨k0, ?_⟩, ?_⟩
  · obtain ⟨r, hr⟩ := hs k0
    exact ⟨r, by rw [kMax_eq_sup, hk0, hr]⟩
  · rw [kMax_eq_sup, hk0]
  · intro k
    rw [kMax_eq_sup]
    exact Finset.le_sup (Finset.mem_univ k)

end Cert.Attn

end
-- ==== Proof.RowSoftmax.lean ====
/-
  The two arrangements of the softmax WEIGHTS and of the CONTEXT row agree on finite inputs.

  With finite scores the numerators `e^(s k − max)` are positive reals, one of them is `e^0 = 1`, so their sum `l` is
  a positive real. Then `p · (1 / l) = p / l`, and `(∑_k p k · V k d) · (1 / l) = ∑_k (p k / l) · V k d` for real `V`
  is distributivity in ℝ. (On the extended reals neither law holds in general: they fail at the infinities.)
-/
import proofs.«420353_j32435593020205_2_alg».proof.Proof.RowScore
import Idealize.ShloMosaic.PureOps.Ideal.Laws
import Mathlib.Data.EReal.Basic
import Mathlib.Analysis.Complex.Exponential
import Mathlib.Algebra.Order.BigOperators.Group.Finset

noncomputable section

open scoped BigOperators

namespace Cert.Attn

open Idealize.ShloMosaic

/-- The coercion ℝ → EReal commutes with finite sums (induction on the index set, by `EReal.coe_add`). -/
private theorem coe_sum {ι : Type} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The reference's numerators are the kernel's: `max (−∞) x = x`. -/
private theorem rP_eq_kP (s : Fin 2048 → EReal) : rP s = kP s := by
  funext k
  unfold rP kP
  rw [rMax_eq]

/-- The numerators of a real-valued row are positive reals. -/
theorem kP_real (s : Fin 2048 → EReal) (hs : IsReal s) : ∀ k, ∃ r : ℝ, 0 < r ∧ kP s k = (r : EReal) := by
  intro k
  obtain ⟨⟨m, hm⟩, -, -⟩ := kMax_real s hs
  obtain ⟨σ, hσ⟩ := hs k
  -- s k − max = σ − m in ℝ, and e^(σ − m) > 0
  refine ⟨Real.exp (σ - m), Real.exp_pos _, ?_⟩
  unfold kP
  rw [hσ, hm, ← EReal.coe_sub, Ideal.exp_coe]

/-- Their sum is a positive real. -/
theorem sumP_real (s : Fin 2048 → EReal) (hs : IsReal s) : ∃ l : ℝ, 0 < l ∧ ∑ k : Fin 2048, kP s k = (l : EReal) := by
  choose p hp0 hp using kP_real s hs
  -- a sum of positive reals over a nonempty index set is positive
  refine ⟨∑ k, p k, Finset.sum_pos (fun k _ => hp0 k) Finset.univ_nonempty, ?_⟩
  rw [← coe_sum]
  exact Finset.sum_congr rfl (fun k _ => hp k)

/-- The weights: `p · (1 / l) = p / (0 + l)`, on one row of finite scores (the same scores on both sides). -/
theorem kAw_eq_rAw (s : Fin 2048 → EReal) (hs : IsReal s) (k : Fin 2048) : kAw s k = rAw s k := by
  obtain ⟨l, hl0, hl⟩ := sumP_real s hs
  unfold kAw rAw kInv
  -- both sides are p · (1 / l) once the sum is the real l ≠ 0, the word 1.0 is 1 and the word 0.0 is 0
  rw [rP_eq_kP, hl, Ideal.ofBits_zero_f32, zero_add, Ideal.div_coe hl0.ne', Ideal.div_coe hl0.ne', word_one, one_mul]

/-- The context row: `(∑ p · V) · (1 / l) = ∑ (p / l) · V`, on finite scores and values. -/
theorem kCtx_eq_rCtx (s : Fin 2048 → EReal) (V : Fin 2048 → Fin 256 → EReal) (hs : IsReal s) (hV : ∀ k, IsReal (V k))
    (d : Fin 256) : kCtx s V d = rCtx s V d := by
  obtain ⟨l, hl0, hl⟩ := sumP_real s hs
  choose p _ hp using kP_real s hs
  choose v hv using fun k => (hV k d : ∃ r : ℝ, V k d = (r : EReal))
  unfold kCtx rCtx rAw kInv
  rw [rP_eq_kP, hl, Ideal.ofBits_zero_f32, zero_add, Ideal.div_coe hl0.ne', word_one, one_mul]
  -- every entry is now the coercion of a real: (∑ p v) · (1 / l) = ∑ (p · (1 / l)) · v in ℝ
  simp only [Ideal.div_coe hl0.ne', hp, hv, ← EReal.coe_mul]
  rw [coe_sum, coe_sum, ← EReal.coe_mul, Finset.sum_mul]
  congr 1
  exact Finset.sum_congr rfl (fun k _ => by ring)

/-- The attention-weight arrays agree on finite queries and keys. -/
theorem awK_eq_awR (Q K : ShQKV.Idx → EReal) (vl : ShLen.Idx → BitVec 32) (hQ : IsReal Q) (hK : IsReal K) :
    awK Q K vl = awR Q K vl := by
  funext i
  unfold awK awR kS rS
  have hq : IsReal (rowOf Q (i 0) (i 1)) := fun d => hQ _
  have hk : ∀ k, IsReal (matOf K (i 0) k) := fun k d => hK _
  rw [kScore_eq_rScore _ _ _ hq hk]
  exact kAw_eq_rAw _ (rScore_real _ _ _ hq hk) _

/-- The context arrays agree on finite queries, keys and values. -/
theorem ctxK_eq_ctxR (Q K V : ShQKV.Idx → EReal) (vl : ShLen.Idx → BitVec 32) (hQ : IsReal Q) (hK : IsReal K)
    (hV : IsReal V) : ctxK Q K V vl = ctxR Q K V vl := by
  funext i
  unfold ctxK ctxR kS rS
  have hq : IsReal (rowOf Q (i 0) (i 1)) := fun d => hQ _
  have hk : ∀ k, IsReal (matOf K (i 0) k) := fun k d => hK _
  have hv : ∀ k, IsReal (matOf V (i 0) k) := fun k d => hV _
  rw [kScore_eq_rScore _ _ _ hq hk]
  exact kCtx_eq_rCtx _ _ (rScore_real _ _ _ hq hk) hv _

end Cert.Attn

end
-- ==== Proof.Finite.lean ====
/-
  The precondition, read: every entry of the three float inputs is a real number.

  The printed predicate is the conjunction of three `all (|x| < +∞)`; each `all` is an `and`-reduction to a scalar, so it
  gives the comparison at every index, and an extended real whose absolute value is below +∞ is neither infinity.
-/
import proofs.«420353_j32435593020205_2_alg».proof.Pre_finite_inputs
import proofs.«420353_j32435593020205_2_alg».proof.Proof.Gen.Pre_finite_inputs
import proofs.«420353_j32435593020205_2_alg».proof.Proof.RowScore
import Idealize.ShloMosaic.Lib.ReduceAll
import Idealize.ShloMosaic.Lib.ValueIdx
import Idealize.ShloMosaic.PureOps.Ideal.Laws

noncomputable section

namespace Cert.Attn.Pre

open Idealize.ShloMosaic Idealize.ShloMosaic.ValueIdx Cert.Attn

/-- The scalar shape has a single index. -/
private instance subsingleton_scalar_idx : Subsingleton Cert.Pre_finite_inputs.S_.Idx :=
  ⟨fun a b => funext fun d => d.elim0⟩

/-- An extended real whose absolute value `max x (-x)` lies below +∞ is a real number: at either infinity the
    maximum is +∞. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The ordered less-than comparison being 1 is the strict order of the extended reals. -/
private theorem lt_of_cmp_olt (x y : EReal) (hc : Ideal.cmp .olt x y = 1#1) : x < y := by
  by_contra hn
  have : Ideal.cmp .olt x y = 0#1 := by simp [Ideal.cmp, hn]
  rw [this] at hc
  exact absurd hc (by decide)

/-- One `all (|a| < +∞)` read back: the `and`-reduction to a scalar being 1 gives the comparison at every index. -/
private theorem real_of_all [Cert.Pre_finite_inputs.Facts]
    (a : FVec Ideal Cert.Pre_finite_inputs.S16x2048x256 .f32) (j : Cert.Pre_finite_inputs.S_.Idx)
    (e : Host.reduce IntOp.andi
        (cmpf .olt (Host.absf a)
          (broadcastInDim Cert.Pre_finite_inputs.S16x2048x256 ![] Cert.Pre_finite_inputs.Facts.bcast_S_S16x2048x256
            (constant Cert.Pre_finite_inputs.S_ .f32 0x7F800000#32)))
        (constantI Cert.Pre_finite_inputs.S_ 1 1#1)
        Cert.Pre_finite_inputs.Facts.reducesTo_S16x2048x256_S_d0_1_2 Cert.Pre_finite_inputs.Facts.h_S_ j = 1#1) :
    IsReal a := by
  intro i
  have hi := Host.reduce_andi_all _ _ _ _ j e i
  apply real_of_abs_lt_top
  apply lt_of_cmp_olt
  rw [← word_pos_inf]
  exact hi

/-- Under the finiteness predicate each float input is real-valued. -/
theorem real_of_pre [Cert.Pre_finite_inputs.Facts]
    (a0 a1 a2 : FVec Ideal Cert.Pre_finite_inputs.S16x2048x256 .f32) (a3 : IVec Cert.Pre_finite_inputs.S16 32)
    (h : Cert.Pre_finite_inputs.fn (F := Ideal) a0 a1 a2 a3 = fun _ => 1#1) :
    IsReal a0 ∧ IsReal a1 ∧ IsReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 _ h0', real_of_all a1 _ h1, real_of_all a2 _ h2⟩

end Cert.Attn.Pre

end
-- ==== Proof.lean ====
/-
  The certificate of masked dot-product attention, B = 16, S = 2048, D = 256, against its jnp reference.

  The kernel computes, per (batch, 512-row query tile), the scores of the scaled queries against the batch's keys, masks
  the key positions at or beyond the batch's valid length with −10⁶, takes the row softmax as numerator times reciprocal,
  writes the weights, and writes the context as (numerators · values) times the reciprocal; the values are kept as a bf16
  copy in a scratch refreshed at each batch's first tile. The reference divides the scores by √256, takes jax's softmax
  and multiplies the weights with the values.

  Over the extended reals, on finite inputs, both are the same function: 1/16 is exact and √256 = 16; the scaling moves
  across the dot product by distributivity; the row maximum of finite scores is finite and attained, so the numerators
  are positive reals and their sum a positive real; `p · (1/l) = p / l`; and the reciprocal moves across the sum over the
  key positions by distributivity again. Finiteness is used exactly there. The frames hold for every length array: no
  index map reads it, and the body reads it only at the batch coordinate.

  Modules: `RowDefs` (one attention row in the two arrangements), `Consts`, `RowScore`, `RowSoftmax` (their equality on
  reals), `KernelP` / `KernelOut` (the body's payloads at an index), `Pieces`, `Invariant`, `KernelValue` (what the run
  leaves in the staging buffers, the scratch and the arrays), `RefRow` (the reference read at an index), `Finite` (the
  precondition read).
-/
import proofs.«420353_j32435593020205_2_alg».proof.Defs
import proofs.«420353_j32435593020205_2_alg».proof.Proof.Gen.Kernel
import proofs.«420353_j32435593020205_2_alg».proof.Proof.Gen.Kernel.Skeleton
import proofs.«420353_j32435593020205_2_alg».proof.Proof.Gen.Kernel.Launch
import proofs.«420353_j32435593020205_2_alg».proof.Proof.Gen.Kernel.Points
import proofs.«420353_j32435593020205_2_alg».proof.Proof.Gen.Kernel.Frame
import proofs.«420353_j32435593020205_2_alg».proof.Proof.Gen.KernelIdeal
import proofs.«420353_j32435593020205_2_alg».proof.Proof.Gen.KernelIdeal.Skeleton
import proofs.«420353_j32435593020205_2_alg».proof.Proof.Gen.KernelIdeal.Launch
import proofs.«420353_j32435593020205_2_alg».proof.Proof.Gen.KernelIdeal.Points
import proofs.«420353_j32435593020205_2_alg».proof.Proof.Gen.KernelIdeal.Frame
import proofs.«420353_j32435593020205_2_alg».proof.Proof.Gen.ReferenceIdeal
import proofs.«420353_j32435593020205_2_alg».proof.Proof.Gen.ReferenceIdeal.Run
import proofs.«420353_j32435593020205_2_alg».proof.Proof.Gen.ReferenceIdeal.Read
import proofs.«420353_j32435593020205_2_alg».proof.Proof.Gen.Pre_finite_inputs
import proofs.«420353_j32435593020205_2_alg».proof.Proof.KernelValue
import proofs.«420353_j32435593020205_2_alg».proof.Proof.RefRow
import proofs.«420353_j32435593020205_2_alg».proof.Proof.RowSoftmax
import proofs.«420353_j32435593020205_2_alg».proof.Proof.Finite
import Idealize.ShloMosaic.Adequacy
import Idealize.ShloMosaic.Init

noncomputable section

namespace Cert.Proof

open Idealize.ShloMosaic Idealize.SL.Sem

/-- The word-level kernel's index maps do not read the length table either. -/
theorem okBits (m : (ℓ : Loc Cert.Kernel.nD Cert.Kernel.τ Cert.Kernel.sig) → Buf (Elt Bits) ℓ) : Cert.Kernel.Gen.Ok m := by
  unfold Cert.Kernel.Gen.Ok Cert.Kernel.ok0; trivial

theorem frame_k : Cert.frame_Kernel := fun m ρ _ => Cert.Kernel.Gen.frame m ρ (okBits m)

theorem frame_ki : Cert.frame_KernelIdeal := fun m ρ _ => Cert.KernelIdeal.Gen.frame m ρ (Cert.Attn.KV.okT m)

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the attention weights and the context of every row: the kernel in its arrangement
    (`Cert.Attn.KV.run`), the reference in its own (`Cert.Attn.Ref.v21_eq`, `v22_eq`), equal on the finite inputs the
    precondition admits (`Cert.Attn.awK_eq_awR`, `ctxK_eq_ctxR`). -/
theorem algebraic : Cert.algebraic_KernelIdeal_ReferenceIdeal := by
  intro m ρ m' ρ' hpre hagree
  refine ⟨fun c => Cert.Attn.awK (m ((c.tc : Thread _ Cert.KernelIdeal.τ).loc Cert.KernelIdeal.main_arg0)) (m ((c.tc : Thread _ Cert.KernelIdeal.τ).loc Cert.KernelIdeal.main_arg1)) (m ((c.tc : Thread _ Cert.KernelIdeal.τ).loc Cert.KernelIdeal.main_arg3)),
    fun c => Cert.Attn.ctxK (m ((c.tc : Thread _ Cert.KernelIdeal.τ).loc Cert.KernelIdeal.main_arg0)) (m ((c.tc : Thread _ Cert.KernelIdeal.τ).loc Cert.KernelIdeal.main_arg1)) (m ((c.tc : Thread _ Cert.KernelIdeal.τ).loc Cert.KernelIdeal.main_arg2)) (m ((c.tc : Thread _ Cert.KernelIdeal.τ).loc Cert.KernelIdeal.main_arg3)),
    Cert.Attn.KV.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK, _⟩ := Cert.Attn.Pre.real_of_pre _ _ _ _ (hpre c)
    rw [Cert.ReferenceIdeal.Read.val_main_v21_eq, Cert.Attn.Ref.v21_eq, (hagree c).1, (hagree c).2.1, (hagree c).2.2.2]
    exact (Cert.Attn.awK_eq_awR _ _ _ hQ hK).symm
  · obtain ⟨hQ, hK, hV⟩ := Cert.Attn.Pre.real_of_pre _ _ _ _ (hpre c)
    rw [Cert.ReferenceIdeal.Read.val_main_v22_eq, Cert.Attn.Ref.v22_eq, (hagree c).1, (hagree c).2.1, (hagree c).2.2.1, (hagree c).2.2.2]
    exact (Cert.Attn.ctxK_eq_ctxR _ _ _ _ hQ hK hV).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
